-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩
abbrev S4096 : Shape := ⟨1, ![4096]⟩

class Facts : Prop where
  reducesTo_S4096x4096_S4096_d1 : S4096x4096.ReducesTo [1] S4096
  h_S_ : 0 < S_.numel
  bcast_S_S4096 : S_.BroadcastsInDim S4096 (![] : Fin 0 → Fin S4096.rank)
  bcast_S_S4096x4096 : S_.BroadcastsInDim S4096x4096 (![] : Fin 0 → Fin S4096x4096.rank)
  reducesTo_S4096x4096_S_d0_1 : S4096x4096.ReducesTo [0, 1] S_
  reducesTo_S4096_S_d0 : S4096.ReducesTo [0] S_

variable [Facts]

def fn_part1 {F : FTy → Type} [FloatOps F] (main_arg1 : FVec F S4096x4096 .f32) (main_v14 : FVec F S4096 .f32) (main_v15 : FVec F S4096x4096 .f32) (main_v16 : FVec F S4096x4096 .f32) : IVec S_ 1 :=
  let main_v17 : IVec S4096x4096 1 := cmpf .olt main_v15 main_v16
  let main_c : IVec S_ 1 := constantI S_ 1 1#1
  let main_v18 : IVec S_ 1 := (fun x v => Host.reduce IntOp.andi x v reducesTo_S4096x4096_S_d0_1 h_S_) main_v17 main_c
  let main_v19 : FVec F S4096x4096 .f32 := Host.absf main_arg1
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_cst_8 : FVec F S_ .f32 := constant S_ .f32 0x00000000#32
  let main_v24 : FVec F S4096 .f32 := broadcastInDim S4096 ![] bcast_S_S4096 main_cst_8
  let main_v25 : IVec S4096 1 := cmpf .ogt main_v14 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v23 main_v26
  main_v27

def fn {F : FTy → Type} [FloatOps F] (main_arg0 : FVec F S4096x4096 .f32) (main_arg1 : FVec F S4096x4096 .f32) : IVec S_ 1 :=
  let main_cst : FVec F S_ .f32 := constant S_ .f32 0x00000000#32
  let main_v0 : FVec F S4096 .f32 := (fun x v => Host.reduceAdd x v reducesTo_S4096x4096_S4096_d1 h_S_) main_arg0 main_cst
  let main_cst_0 : FVec F S_ .f32 := constant S_ .f32 0x00000000#32
  let main_v1 : FVec F S4096 .f32 := (fun x v => Host.reduceAdd x v reducesTo_S4096x4096_S4096_d1 h_S_) main_arg1 main_cst_0
  let main_v2 : FVec F S4096x4096 .f32 := mulf main_arg0 main_arg0
  let main_cst_1 : FVec F S_ .f32 := constant S_ .f32 0x00000000#32
  let main_v3 : FVec F S4096 .f32 := (fun x v => Host.reduceAdd x v reducesTo_S4096x4096_S4096_d1 h_S_) main_v2 main_cst_1
  let main_v4 : FVec F S4096x4096 .f32 := mulf main_arg1 main_arg1
  let main_cst_2 : FVec F S_ .f32 := constant S_ .f32 0x00000000#32
  let main_v5 : FVec F S4096 .f32 := (fun x v => Host.reduceAdd x v reducesTo_S4096x4096_S4096_d1 h_S_) main_v4 main_cst_2
  let main_cst_3 : FVec F S_ .f32 := constant S_ .f32 0x45800000#32
  let main_v6 : FVec F S4096 .f32 := broadcastInDim S4096 ![] bcast_S_S4096 main_cst_3
  let main_v7 : FVec F S4096 .f32 := mulf main_v6 main_v3
  let main_v8 : FVec F S4096 .f32 := mulf main_v0 main_v0
  let main_v9 : FVec F S4096 .f32 := subf main_v7 main_v8
  let main_cst_4 : FVec F S_ .f32 := constant S_ .f32 0x45800000#32
  let main_v10 : FVec F S4096 .f32 := broadcastInDim S4096 ![] bcast_S_S4096 main_cst_4
  let main_v11 : FVec F S4096 .f32 := mulf main_v10 main_v5
  let main_v12 : FVec F S4096 .f32 := mulf main_v1 main_v1
  let main_v13 : FVec F S4096 .f32 := subf main_v11 main_v12
  let main_v14 : FVec F S4096 .f32 := mulf main_v9 main_v13
  let main_v15 : FVec F S4096x4096 .f32 := Host.absf main_arg0
  let main_cst_5 : FVec F S_ .f32 := constant S_ .f32 0x7F800000#32
  let main_v16 : FVec F S4096x4096 .f32 := broadcastInDim S4096x4096 ![] bcast_S_S4096x4096 main_cst_5
  fn_part1 (F := F) main_arg1 main_v14 main_v15 main_v16
-- ==== Kernel.lean ====
abbrev S4096x4096 : Shape := ⟨2, ![4096, 4096]⟩
abbrev S4096x1 : Shape := ⟨2, ![4096, 1]⟩
abbrev S256x4096 : Shape := ⟨2, ![256, 4096]⟩
abbrev S256x1 : Shape := ⟨2, ![256, 1]⟩
abbrev S256 : Shape := ⟨1, ![256]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x1, .f32⟩
  | .local _ .vmem, ⟨5, _⟩ => ⟨S256x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩

abbrev nBuf : Space → Nat
  | .hbm => 39
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.RowCorr.lean ====
/-
  One row's Pearson statistic on the extended reals, in the two forms the two programs compute it.

  For a row pair `x, y : Fin 4096 → EReal` write `Σxy`, `Σx`, `Σy`, `Σxx`, `Σyy` for the five sums over the row and
  `L` for the row length 4096 (the extended real its f32 word denotes). The numerator is `L·Σxy − Σx·Σy`, the
  denominator `d = (L·Σxx − Σx·Σx) · (L·Σyy − Σy·Σy)`. One program multiplies the numerator by the reciprocal square
  root of `d`, the other divides it by the square root of `d`.

  The two agree wherever `0 < d`: for a positive real `d` both are the numerator times `(√d)⁻¹`, and at `d = ⊤` both are
  the numerator times zero. (At `d = 0` they part: the product with `rsqrt 0 = ⊤` is `0` for a zero numerator, the
  quotient `0 / 0` is `⊥`; that is why the statement asks for `0 < d` on every row.) The law needs nothing of the
  numerator: it holds for every extended real.

  The loss is `1 − (Σ over rows of the statistic) / L`.
-/
import Idealize.ShloMosaic.PureOps.Ideal.Laws
import Idealize.ShloMosaic.Lib.ValueIdx

noncomputable section

open scoped BigOperators

namespace Cert.RowCorr

open Idealize.ShloMosaic Idealize.ShloMosaic.ValueIdx

/-- Row `r` of a 4096 × 4096 array, as a function of the column. -/
abbrev row (X : (⟨2, ![4096, 4096]⟩ : Shape).Idx → EReal) (r : Fin 4096) : Fin 4096 → EReal := fun k => X (ix2 r k)

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- A sum over the index set of an `n × 1` column is the sum over its rows. -/
theorem sum_idx_col {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- The row length, 4096, as the extended real its f32 word denotes. -/
def len : EReal := Ideal.ofBits .f32 0x45800000#32

/-- `L·Σxy − Σx·Σy`. -/
def num (x y : Fin 4096 → EReal) : EReal := len * (∑ k, x k * y k) - (∑ k, x k) * (∑ k, y k)

/-- `L·Σxx − Σx·Σx`: `L` times the row's sum of squares less the square of its sum. -/
def spread (x : Fin 4096 → EReal) : EReal := len * (∑ k, x k * x k) - (∑ k, x k) * (∑ k, x k)

/-- The denominator: the product of the two rows' spreads. -/
def den (x y : Fin 4096 → EReal) : EReal := spread x * spread y

/-- The statistic as numerator times reciprocal square root of the denominator. -/
def viaRsqrt (x y : Fin 4096 → EReal) : EReal := num x y * Ideal.rsqrt (den x y)

/-- The statistic as numerator over square root of the denominator. -/
def viaSqrt (x y : Fin 4096 → EReal) : EReal := Ideal.div (num x y) (Ideal.sqrt (den x y))

/-- For a positive extended real `d`, `n · rsqrt d = n / √d`, whatever `n` is: for real `d > 0` both are
    `n · (√d)⁻¹` (`√d` is a nonzero real, so the quotient is the product with its inverse); at `d = ⊤` both are `n · 0`. -/
theorem mul_rsqrt_eq_div_sqrt (n d : EReal) (hd : 0 < d) : n * Ideal.rsqrt d = Ideal.div n (Ideal.sqrt d) := by
  induction d using EReal.rec with
  | bot => exact absurd hd (not_lt.mpr bot_le)
  | top => rw [Ideal.rsqrt_top, Ideal.sqrt_top, Ideal.div, if_neg EReal.top_ne_zero, EReal.inv_top]
  | coe r =>
    have hr : 0 < r := EReal.coe_pos.mp hd
    have hs : Real.sqrt r ≠ 0 := (Real.sqrt_pos.mpr hr).ne'
    have hs' : ((Real.sqrt r : ℝ) : EReal) ≠ 0 := by exact_mod_cast hs
    rw [Ideal.rsqrt_coe, Ideal.sqrt_coe, if_neg (not_lt.mpr hr.le), if_neg hr.ne', if_neg (not_lt.mpr hr.le), Ideal.div,
      if_neg hs', EReal.coe_inv]

/-- On a row pair whose denominator is positive the two forms of the statistic are equal. -/
theorem viaRsqrt_eq_viaSqrt (x y : Fin 4096 → EReal) (h : 0 < den x y) : viaRsqrt x y = viaSqrt x y :=
  mul_rsqrt_eq_div_sqrt _ _ h

/-- The loss from the rows' statistics: one less their mean. -/
def loss (f : Fin 4096 → EReal) : EReal := (Ideal.ofBits .f32 0x3F800000#32 : EReal) - Ideal.div (∑ r, f r) len

end Cert.RowCorr

end
-- ==== Proof.PreRows.lean ====
/-
  What the precondition says of a row: its denominator is positive.

  The precondition is a conjunction of three `all`s. The third ranges over the rows: at row `r` it compares
  `(L·Σxx − Σx·Σx)·(L·Σyy − Σy·Σy)`, the sums over the row's 4096 columns starting from the zero word, with the zero word,
  and asks for "greater". An and-reduction that came out `1` met a `1` at every index, a conjunction that is `1` has
  both sides `1`, and on the extended reals "greater than 0" that came out `1` is `0 < ·`. So under the precondition
  every row has `0 < d`, which is all the bridge needs of it (finiteness of the entries is never used).
-/
import proofs.«101673_j6545530159352_1_alg».proof.Pre_finite_inputs
import proofs.«101673_j6545530159352_1_alg».proof.Proof.RowCorr
import Idealize.ShloMosaic.Lib.ReduceAll
import Idealize.ShloMosaic.Lib.Pipeline.Value

noncomputable section

open scoped BigOperators

namespace Cert.PreRows

open Idealize.ShloMosaic Idealize.ShloMosaic.ValueIdx Cert.Pre_finite_inputs Cert.RowCorr

variable [Cert.Pre_finite_inputs.Facts]
open Cert.Pre_finite_inputs.Facts

/-- The scalar shape has one index. -/
instance : Subsingleton S_.Idx := ⟨fun a b => funext fun d => d.elim0⟩

/-- A sum over the columns, read at row `r`: the initial value plus the sum of the row's entries. -/
theorem reduce_row (hr : S4096x4096.ReducesTo [1] S4096) (h0 : 0 < S_.numel) (x : FVec Ideal S4096x4096 .f32)
    (init : FVec Ideal S_ .f32) (r : Fin 4096) :
    Host.reduceAdd (F := Ideal) x init hr h0 (ix1 r) = init (Shape.Idx.first h0) + ∑ k : Fin 4096, x (ix2 r k) := by
  simp only [Host.reduceAdd, Ideal.hostReduceAdd_def]
  rw [Ideal.hostReduceAdd_single hr (by decide)]
  refine congrArg (_ + ·) (Finset.sum_congr rfl fun k _ => ?_)
  exact congrArg x (funext fun a => Fin.ext (by match a with | ⟨0, _⟩ => rfl | ⟨1, _⟩ => rfl))

/-- A scalar broadcast along the rows reads the scalar at every row. -/
theorem bcast_scalar (h : S_.BroadcastsInDim S4096 (![] : Fin 0 → Fin S4096.rank)) (x : FVec Ideal S_ .f32) (j : S4096.Idx) :
    broadcastInDim S4096 ![] h x j = x ix0 :=
  broadcastInDim_apply _ h x j ix0 (fun a => a.elim0)

/-- Under the precondition every row's denominator is positive. -/
theorem den_pos_of_pre (X Y : FVec Ideal S4096x4096 .f32) (h : fn (F := Ideal) X Y = fun _ => 1#1) (r : Fin 4096) :
    0 < den (row X r) (row Y r) := by
  have h0 := congrFun h ix0
  dsimp only [fn, fn_part1] at h0
  obtain ⟨-, h26⟩ := IntOp.andi_eq_one.1 h0
  have hr := Host.reduce_andi_all _ _ _ _ _ h26 (ix1 r)
  rw [cmpf_apply] at hr
  simp only [mulf_apply, subf_apply, reduce_row, constant_apply, Ideal.ofBits_zero_f32, zero_add] at hr
  unfold den spread len row
  rw [Ideal.cmpf_def] at hr
  unfold Ideal.cmp at hr
  dsimp only at hr
  rw [bcast_scalar, bcast_scalar] at hr
  simp only [constant_apply, Ideal.ofBits_zero_f32] at hr
  by_contra hn
  rw [decide_eq_false hn] at hr
  exact absurd hr (by decide)

end Cert.PreRows

end
-- ==== Proof.RefRows.lean ====
/-
  The reference, read row by row.

  Its per-row value is the statistic in the quotient form: at row `r` the numerator `L·Σxy − Σx·Σy` over the square
  root of `(L·Σxx − Σx·Σx)·(L·Σyy − Σy·Σy)`, every sum running over the row's 4096 columns and starting from the zero
  word (which is the extended real `0`). Its result is one less the rows' mean: the sum over the rank-1 index set of
  the per-row values, re-indexed by the row number, divided by `L`, subtracted from `1`.
-/
import proofs.«101673_j6545530159352_1_alg».proof.Proof.Gen.ReferenceIdeal.Read
import proofs.«101673_j6545530159352_1_alg».proof.Proof.RowCorr

noncomputable section

open scoped BigOperators

namespace Cert.RefRows

open Idealize.ShloMosaic Idealize.ShloMosaic.ValueIdx Cert.ReferenceIdeal Cert.ReferenceIdeal.Read Cert.RowCorr

/-- The index the reference's row sums read at row `r`, column `k`, is `(r, k)`. -/
theorem idx_row (r k : Fin 4096) : idx_main_v1 (ix1 r) k = ix2 r k :=
  funext fun a => by match a with | ⟨0, _⟩ => rfl | ⟨1, _⟩ => rfl

/-- The reference's per-row value at row `r` is the quotient form of the statistic on row `r` of its two arguments. -/
theorem stat_row (X Y : (⟨S4096x4096, .f32⟩ : BufTy).Contents (Elt Ideal)) (r : Fin 4096) :
    val_main_v22 (F := Ideal) X Y (ix1 r) = viaSqrt (row X r) (row Y r) := by
  have e1 : ∀ k, idx_main_v1 (ix1 r) k = ix2 r k := idx_row r
  have e2 : ∀ k, idx_main_v2 (ix1 r) k = ix2 r k := idx_row r
  have e3 : ∀ k, idx_main_v3 (ix1 r) k = ix2 r k := idx_row r
  have e5 : ∀ k, idx_main_v5 (ix1 r) k = ix2 r k := idx_row r
  have e7 : ∀ k, idx_main_v7 (ix1 r) k = ix2 r k := idx_row r
  unfold viaSqrt num den spread len
  simp only [val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply, val_main_cst_4_apply, val_main_cst_5_apply, val_main_cst_6_apply, e1, e2, e3, e5, e7,
    Ideal.mulf_def, Ideal.subf_def, Ideal.hostDivf_def, Ideal.hostUnary_sqrt_def, Ideal.ofBits_def, Ideal.ofBits_zero_f32, zero_add]

/-- The reference's result is the loss of the rows' quotient-form statistics. -/
theorem result_eq (X Y : (⟨S4096x4096, .f32⟩ : BufTy).Contents (Elt Ideal)) :
    val_main_v25 (F := Ideal) X Y = fun _ => loss fun r => viaSqrt (row X r) (row Y r) := by
  funext i
  rw [val_main_v25_apply, val_main_v24_apply, val_main_v23_apply, val_main_cst_9_apply, val_main_cst_8_apply,
    val_main_cst_7_apply, sum_idx1]
  simp only [stat_row, Ideal.subf_def, Ideal.hostDivf_def, Ideal.ofBits_def, Ideal.ofBits_zero_f32, zero_add]
  rfl

end Cert.RefRows

end
-- ==== Proof.LibKeepdims.lean ====
/-
  A keepdims column read at an index.

  Summing an `[a, b]` array over its second axis with the axis kept gives an `[a, 1]` column; it is computed as the
  `[a]` vector of row sums re-laid as a column. In row-major order entry `(i, 0)` of the column is entry `i` of the
  vector (position `i · 1 + 0 = i`), so the cast reads the vector at the row number.
-/
import Idealize.ShloMosaic.Lib.Pipeline.Value
import Idealize.ShloMosaic.Lib.ValueIdx

namespace Idealize.ShloMosaic.ValueKeepdims

open Idealize.ShloMosaic Idealize.ShloMosaic.ValueIdx

/-- An `[a]` vector cast to an `[a, 1]` column reads, at `(i, u)`, the vector at `i`: the two indices have the same
    row-major position, `i = i · 1 + u` with `u = 0` the only coordinate of the unit axis. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Idealize.ShloMosaic.ValueKeepdims
-- ==== Proof.KernelRows.lean ====
/-
  What the kernel body computes on one block row.

  The body loads a 256 × 4096 block of each argument, takes five sums along each row (of x·y, x, y, x·x, y·y), lays
  each vector of row sums out as a 256 × 1 column, and stores `(L·Σxy − Σx·Σy) · rsqrt((L·Σxx − Σx·Σx)·(L·Σyy − Σy·Σy))`,
  all arithmetic entry by entry on the columns. At the exact values a row sum is the plain sum over the row's 4096
  columns (the zero accumulator drops out), the column layout reads the vector at the row number, a splat reads its
  scalar, and the pointwise operations act on the entries. So at row `p` of the block the stored value is the product
  form of the statistic on row `p` of the two blocks.
-/
import proofs.«101673_j6545530159352_1_alg».proof.Proof.Gen.KernelIdeal.Skeleton
import proofs.«101673_j6545530159352_1_alg».proof.Proof.RowCorr
import proofs.«101673_j6545530159352_1_alg».proof.Proof.LibKeepdims

noncomputable section

open scoped BigOperators

namespace Cert.KernelRows

open Idealize.ShloMosaic Idealize.ShloMosaic.ValueIdx Idealize.ShloMosaic.ValueKeepdims Cert.KernelIdeal Cert.KernelIdeal.Gen
  Cert.RowCorr

/-- Row `p` of a 256 × 4096 block, as a function of the column. -/
abbrev brow (x : FVec Ideal S256x4096 .f32) (p : Fin 256) : Fin 4096 → EReal := fun k => x (ix2 p k)

/-- A sum along the rows of a block, from the zero word, read at row `p`: the sum of the row's entries. -/
theorem rowsum (src : FVec Ideal S256x4096 .f32) (h : S256x4096.Reduces [1] S256) (hφ : FKind.Formats .f32)
    (hacc : (0x00000000#32 : BitVec FTy.f32.bits) = (0x00000000#32 : BitVec FTy.f32.bits)) (p : Fin 256) :
    multiReduction .add [1] S256 src 0x00000000#32 h hφ hacc (ix1 p) = ∑ k : Fin 4096, src (ix2 p k) :=
  (Ideal.multiReduction_add_single src _ h hφ hacc (ix1 p)).trans
    (Finset.sum_congr rfl fun k _ => congrArg src (funext fun a => Fin.ext (by match a with | ⟨0, _⟩ => rfl | ⟨1, _⟩ => rfl)))

/-- The reciprocal square root of a column acts entry by entry. -/
theorem rsqrt_apply (a : FVec Ideal S256x1 .f32) (i : S256x1.Idx) : rsqrt a i = Ideal.rsqrt (a i) := rfl

/-- The stored value at row `p` of the block is the product form of the statistic on row `p` of the two loaded blocks. -/
theorem pay_row (x0 x1 : FVec Ideal S256x4096 .f32) (p : Fin 256) (q : Fin 1) :
    k0_pay1 (F := Ideal) x0 x1 (ix2 p q) = viaRsqrt (brow x0 p) (brow x1 p) := by
  unfold k0_pay1
  dsimp only
  unfold viaRsqrt num den spread len brow
  simp only [mulf_apply, subf_apply, rsqrt_apply, broadcast_apply, shapeCast_a_a1_apply, Ideal.ofBits_def]
  rw [rowsum, rowsum, rowsum, rowsum, rowsum]
  simp only [mulf_apply]

end Cert.KernelRows

end
-- ==== Proof.KernelValue.lean ====
/-
  The kernel's run, read as a value.

  The output column is written back in sixteen blocks of 256 rows. Point `t` of the grid reads block row `t` of each
  argument (all 4096 columns) and writes block row `t` of the column; what it writes is, row by row, the product form of
  the statistic on that row of the two arguments. The sixteen blocks tile the column (row `i` lies in block `i / 256`),
  so after the region the column holds the product-form statistic of every row. The operations after the region sum
  the column from the zero word, divide by `L` and subtract from `1`: the loss of the rows' product-form statistics.
-/
import proofs.«101673_j6545530159352_1_alg».proof.Proof.Gen.KernelIdeal.Frame
import proofs.«101673_j6545530159352_1_alg».proof.Proof.KernelRows

set_option maxRecDepth 16384

noncomputable section

open scoped BigOperators

namespace Cert.KernelValue

open Idealize.ShloMosaic Idealize.ShloMosaic.TcCoe Idealize.ShloMosaic.ValueIdx Idealize.SL.Sem
open Cert.KernelIdeal Cert.KernelIdeal.Gen Cert.RowCorr Cert.KernelRows
open Idealize.ShloMosaic.Pipeline (Dat)

variable (m : (ℓ : Loc nD τ sig) → Buf (Elt Ideal) ℓ) (ρ : Dev nD → PrngReg)

/-- The row number of an entry of the 4096 × 1 column. -/
def rowOf (i : (⟨2, ![4096, 1]⟩ : Shape).Idx) : Fin 4096 := ⟨(i 0).val, idx2_lt0 i⟩

/-- The column of product-form statistics of the rows of two 4096 × 4096 arrays. -/
def stat (X Y : (⟨2, ![4096, 4096]⟩ : Shape).Idx → EReal) : (⟨2, ![4096, 1]⟩ : Shape).Idx → EReal :=
  fun i => viaRsqrt (row X (rowOf i)) (row Y (rowOf i))

theorem hz : (![0, 0] : Fin 2 → Nat) = fun _ => 0 := funext fun a => by fin_cases a <;> rfl

/-- The three windows move together: at every point the two input blocks sit at the output block's row index and at
    column index zero, and the output block's column index is zero. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0 :=
  (by decide +kernel : ∀ t : Fin grid0.N, _)

/-- Every block row of the column is some point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- What point `t` writes back is block `t` of the column of statistics of the arguments as the region finds them. -/
theorem flushed_eq (c : Dev nD) (t : Fin cfg0.N) :
    (dats m 0 c).flushed 2 t
      = ((cfg0.win 2).blk t).view.read (Elt Ideal) (stat (V m c main_arg0) (V m c main_arg1)) := by
  show (cfg0.win 2).cut (grid0.coords t) ((dats m 0 c).after 2 t) = _
  rw [after0_2]
  unfold out0_2
  rw [View.canon_unit_zero hz]
  simp only [View.ld_unit_zero (S := S256x4096) hz]
  obtain ⟨e0, e1, e2, e3, e4⟩ := idx_facts t
  funext j
  obtain ⟨p, q, rfl⟩ : ∃ (p : Fin 256) (q : Fin 1), j = ix2 p q := ⟨j 0, j 1, eq_ix2 j⟩
  show k0_pay1 (F := Ideal) (iblk m c 0 t) (iblk m c 1 t) (ix2 p q)
    = stat (V m c main_arg0) (V m c main_arg1) (((cfg0.win 2).blk t).view.emb (ix2 p q))
  refine (pay_row (iblk m c 0 t) (iblk m c 1 t) p q).trans ?_
  have hx : brow (iblk m c 0 t) p = row (V m c main_arg0) (rowOf (((cfg0.win 2).blk t).view.emb (ix2 p q))) := by
    funext k
    show V m c main_arg0 (((cfg0.win 0).blk t).view.emb (ix2 p k)) = V m c main_arg0 (ix2 (rowOf (((cfg0.win 2).blk t).view.emb (ix2 p q))) k)
    refine congrArg (V m c main_arg0) (funext fun a => Fin.ext ?_)
    match a with
    | ⟨0, _⟩ => show win0_0.index t (0 : Fin 2) * 256 + 1 * p.val = win0_2.index t (0 : Fin 2) * 256 + 1 * p.val; omega
    | ⟨1, _⟩ => show win0_0.index t (1 : Fin 2) * 4096 + 1 * k.val = k.val; omega
  have hy : brow (iblk m c 1 t) p = row (V m c main_arg1) (rowOf (((cfg0.win 2).blk t).view.emb (ix2 p q))) := by
    funext k
    show V m c main_arg1 (((cfg0.win 1).blk t).view.emb (ix2 p k)) = V m c main_arg1 (ix2 (rowOf (((cfg0.win 2).blk t).view.emb (ix2 p q))) k)
    refine congrArg (V m c main_arg1) (funext fun a => Fin.ext ?_)
    match a with
    | ⟨0, _⟩ => show win0_1.index t (0 : Fin 2) * 256 + 1 * p.val = win0_2.index t (0 : Fin 2) * 256 + 1 * p.val; omega
    | ⟨1, _⟩ => show win0_1.index t (1 : Fin 2) * 4096 + 1 * k.val = k.val; omega
  show viaRsqrt (brow (iblk m c 0 t) p) (brow (iblk m c 1 t) p) = viaRsqrt _ _
  rw [hx, hy]

/-- An entry of the column is in point `t`'s block iff each coordinate is in the block's range on its axis. -/
theorem mem_blk (t : Fin cfg0.N) (i : S4096x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v0).slice (win0_2.rect t)).set ↔ _
  rw [View.set_slice_whole, Rect.mem_set_unit]
  exact Iff.rfl

/-- Every entry of the column is in the block of the point whose row index is the entry's row over 256. -/
theorem cover (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1 ≤ (i 1).val ∧ (i 1).val < win0_2.index t (1 : Fin 2) * 1 + 1; omega

/-- The column after the region: the statistics of the rows of the two arguments. -/
theorem final (c : Dev nD) :
    (dats m 0 c).arrAt 2 cfg0.N = stat (m ((c : Thread nD τ).loc main_arg0)) (m ((c : Thread nD τ).loc main_arg1)) :=
  (dats m 0 c).arrAt_eq_of_cover 2 (stat (V m c main_arg0) (V m c main_arg1)) (fun t _ => flushed_eq m c t) cover

/-- The operations after the region, from the column the region leaves: the loss of the rows' product-form statistics.
    The sum over both axes of the 4096 × 1 column, from the zero word, is the sum over the rows. -/
theorem tail_eq (c : Dev nD) :
    Pipeline.afterTail₀ cfgs (dats m) 0 (V0 m) [hostOps1] c main_v3
      = fun _ => loss fun r => viaRsqrt (row (m ((c : Thread nD τ).loc main_arg0)) r) (row (m ((c : Thread nD τ).loc main_arg1)) r) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v0)
      = stat (m ((c : Thread nD τ).loc main_arg0)) (m ((c : Thread nD τ).loc main_arg1)) :=
    (Pipeline.withArrays_arr spec0 launch0.win.arr_inj c _ _ 2).trans (final m c)
  rw [hw]
  funext i
  have hs : Host.reduceAdd (F := Ideal) (stat (m ((c : Thread nD τ).loc main_arg0)) (m ((c : Thread nD τ).loc main_arg1)))
      (constant S_ .f32 0x00000000#32) reducesTo_S4096x1_S_d0_1 h_S_ i
      = ∑ r : Fin 4096, viaRsqrt (row (m ((c : Thread nD τ).loc main_arg0)) r) (row (m ((c : Thread nD τ).loc main_arg1)) r) := by
    simp only [Host.reduceAdd, Ideal.hostReduceAdd_def]
    refine (Ideal.hostReduceAdd_total reducesTo_S4096x1_S_d0_1 (fun b => b.elim0) _ _ i).trans ?_
    rw [constant_apply, Ideal.ofBits_zero_f32, zero_add, sum_idx_col]
    rfl
  show (Ideal.ofBits .f32 0x3F800000#32 : EReal) - Ideal.div (Host.reduceAdd (F := Ideal) _ _ reducesTo_S4096x1_S_d0_1 h_S_ i) (Ideal.ofBits .f32 0x45800000#32) = _
  rw [hs]
  rfl

/-- Every weakly fair execution of the kernel program terminates with its result at the loss of the rows'
    product-form statistics and its two arguments unchanged. -/
theorem run : θ_run defs (onTc (τ := τ) (main (F := Ideal))) ⟨m, fun _ => 0, ρ⟩ fun r => ∀ c : Dev nD,
      r.2.mem ((c.tc : Thread nD τ).loc main_v3)
        = (fun _ => loss fun r' => viaRsqrt (row (m ((c.tc : Thread nD τ).loc main_arg0)) r') (row (m ((c.tc : Thread nD τ).loc main_arg1)) r'))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelValue

end
-- ==== Proof.lean ====
/-
  Row-wise Pearson loss: a blocked kernel against the plain reference, on the extended reals.

  Both programs take two 4096 × 4096 arrays, form on every row the five sums Σxy, Σx, Σy, Σxx, Σyy over its 4096
  columns, the numerator `n = L·Σxy − Σx·Σy` and the denominator `d = (L·Σxx − Σx·Σx)·(L·Σyy − Σy·Σy)` (`L` the row
  length), a per-row statistic, and return one less the mean of the statistics. The kernel computes the statistic as
  `n · rsqrt d`, sixteen blocks of 256 rows at a time, and takes the mean after the region; the reference computes
  `n / √d` on whole arrays.

  The two statistics agree wherever `0 < d`: both are `n · (√d)⁻¹` for a positive real `d`, and both `n · 0` at
  `d = ⊤` (Proof/RowCorr.lean). The precondition asks `0 < d` on every row, which is the domain of the reference's own
  quotient (at `d = 0` it is `0 / 0`); Proof/PreRows.lean reads that off the printed predicate. Nothing else of the
  precondition is used: the law holds for every extended-real numerator, so finiteness of the entries never enters.

  The kernel's result as a function of its arguments is Proof/KernelValue.lean (over Proof/KernelRows.lean, the body on
  one block row); the reference's is Proof/RefRows.lean. Equal statistics on every row give equal sums, equal means
  and equal results. The idealization rewrote nothing, so `preserves` has nothing to state.
-/
import proofs.«101673_j6545530159352_1_alg».proof.Defs
import proofs.«101673_j6545530159352_1_alg».proof.Proof.Gen.Kernel
import proofs.«101673_j6545530159352_1_alg».proof.Proof.Gen.Kernel.Skeleton
import proofs.«101673_j6545530159352_1_alg».proof.Proof.Gen.Kernel.Launch
import proofs.«101673_j6545530159352_1_alg».proof.Proof.Gen.Kernel.Points
import proofs.«101673_j6545530159352_1_alg».proof.Proof.Gen.Kernel.Frame
import proofs.«101673_j6545530159352_1_alg».proof.Proof.Gen.KernelIdeal
import proofs.«101673_j6545530159352_1_alg».proof.Proof.Gen.KernelIdeal.Skeleton
import proofs.«101673_j6545530159352_1_alg».proof.Proof.Gen.KernelIdeal.Launch
import proofs.«101673_j6545530159352_1_alg».proof.Proof.Gen.KernelIdeal.Points
import proofs.«101673_j6545530159352_1_alg».proof.Proof.Gen.KernelIdeal.Frame
import proofs.«101673_j6545530159352_1_alg».proof.Proof.Gen.ReferenceIdeal
import proofs.«101673_j6545530159352_1_alg».proof.Proof.Gen.Pre_finite_inputs
import proofs.«101673_j6545530159352_1_alg».proof.Proof.Gen.ReferenceIdeal.Run
import proofs.«101673_j6545530159352_1_alg».proof.Proof.Gen.ReferenceIdeal.Read
import proofs.«101673_j6545530159352_1_alg».proof.Proof.RowCorr
import proofs.«101673_j6545530159352_1_alg».proof.Proof.PreRows
import proofs.«101673_j6545530159352_1_alg».proof.Proof.RefRows
import proofs.«101673_j6545530159352_1_alg».proof.Proof.KernelValue
import Idealize.ShloMosaic.Adequacy
import Idealize.ShloMosaic.Init

noncomputable section

namespace Cert.Proof

open Idealize.ShloMosaic Idealize.SL.Sem Cert.RowCorr

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, the kernel ends at the loss of the rows' product-form statistics and
    the reference at the loss of their quotient-form statistics; under the precondition every row's denominator is
    positive, so the two forms agree row by row and the results are equal. -/
theorem algebraic : Cert.algebraic_KernelIdeal_ReferenceIdeal := by
  intro m ρ m' ρ' hpre hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.RefRows.result_eq, (hagree c).1, (hagree c).2]
  funext _
  refine congrArg loss (funext fun r => ?_)
  exact (viaRsqrt_eq_viaSqrt _ _ (Cert.PreRows.den_pos_of_pre _ _ (hpre c) r)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
